-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S64x768 : Shape := ⟨2, ![64, 768]⟩
abbrev S32x64 : Shape := ⟨2, ![32, 64]⟩
abbrev S4x32 : Shape := ⟨2, ![4, 32]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S32x64 : S_.BroadcastsInDim S32x64 (![] : Fin 0 → Fin S32x64.rank)
  reducesTo_S32x64_S_d0_1 : S32x64.ReducesTo [0, 1] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  main_v18

def fn {F : FTy → Type} [FloatOps F] (main_arg0 : FVec F S65536x768 .f32) (main_arg1 : FVec F S64x768 .f32) (main_arg2 : FVec F S32x64 .f32) (main_arg3 : FVec F S4x32 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_v13 main_v16
-- ==== Kernel.lean ====
abbrev S65536x768 : Shape := ⟨2, ![65536, 768]⟩
abbrev S64x768 : Shape := ⟨2, ![64, 768]⟩
abbrev S32x64 : Shape := ⟨2, ![32, 64]⟩
abbrev S4x32 : Shape := ⟨2, ![4, 32]⟩
abbrev S65536x4 : Shape := ⟨2, ![65536, 4]⟩
abbrev S2048x768 : Shape := ⟨2, ![2048, 768]⟩
abbrev S2048x4 : Shape := ⟨2, ![2048, 4]⟩
abbrev S768x64 : Shape := ⟨2, ![768, 64]⟩
abbrev S2048x64 : Shape := ⟨2, ![2048, 64]⟩
abbrev S2048 : Shape := ⟨1, ![2048]⟩
abbrev S2048x1 : Shape := ⟨2, ![2048, 1]⟩
abbrev S64x32 : Shape := ⟨2, ![64, 32]⟩
abbrev S2048x32 : Shape := ⟨2, ![2048, 32]⟩
abbrev S32x4 : Shape := ⟨2, ![32, 4]⟩

abbrev nBuf : Space → Nat
  | .hbm => 5
  | .vmem => 7
  | .smem => 0
  | _ => 0

abbrev bufTy : (tb : Table) → Fin (tcTables nBuf tb) → BufTy
  | .hbm, ⟨0, _⟩ => ⟨S65536x768, .f32⟩
  | .hbm, ⟨1, _⟩ => ⟨S64x768, .f32⟩
  | .hbm, ⟨2, _⟩ => ⟨S32x64, .f32⟩
  | .hbm, ⟨3, _⟩ => ⟨S4x32, .f32⟩
  | .hbm, ⟨4, _⟩ => ⟨S65536x4, .f32⟩
  | .local _ .vmem, ⟨0, _⟩ => ⟨S2048x768, .f32⟩
  | .local _ .vmem, ⟨1, _⟩ => ⟨S2048x768, .f32⟩
  | .local _ .vmem, ⟨2, _⟩ => ⟨S64x768, .f32⟩
  | .local _ .vmem, ⟨3, _⟩ => ⟨S32x64, .f32⟩
  | .local _ .vmem, ⟨4, _⟩ => ⟨S4x32, .f32⟩
  | .local _ .vmem, ⟨5, _⟩ => ⟨S2048x4, .f32⟩
  | .local _ .vmem, ⟨6, _⟩ => ⟨S2048x4, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2048x768_S2048x768_0_0 : ∀ a, (![0, 0] : Fin 2 → Nat) a + S2048x768.size a ≤ S2048x768.size a
  h_S2048x768 : 0 < S2048x768.numel
  inb_S64x768_S64x768_0_0 : ∀ a, (![0, 0] : Fin 2 → Nat) a + S64x768.size a ≤ S64x768.size a
  h_S64x768 : 0 < S64x768.numel
  bitsLt_bf16_f32 : FTy.bits .bf16 < FTy.bits .f32
  transposes_S64x768_p1_0_S768x64 : S64x768.Transposes [1, 0] S768x64
  reduces_S2048x768_S2048 : S2048x768.Reduces [1] S2048
  shapeCasts_S2048_S2048x1 : S2048.ShapeCasts S2048x1
  broadcasts_S2048x1_S2048x64 : S2048x1.Broadcasts S2048x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  reduces_S2048x64_S2048 : S2048x64.Reduces [1] S2048
  broadcasts_S2048x1_S2048x32 : S2048x1.Broadcasts S2048x32
  inb_S4x32_S4x32_0_0 : ∀ a, (![0, 0] : Fin 2 → Nat) a + S4x32.size a ≤ S4x32.size a
  h_S4x32 : 0 < S4x32.numel
  transposes_S4x32_p1_0_S32x4 : S4x32.Transposes [1, 0] S32x4
  reduces_S2048x32_S2048 : S2048x32.Reduces [1] S2048
  broadcasts_S2048x1_S2048x4 : S2048x1.Broadcasts S2048x4
  inb_S2048x4_S2048x4_0_0 : ∀ a, (![0, 0] : Fin 2 → Nat) a + S2048x4.size a ≤ S2048x4.size a
  h_S2048x4 : 0 < S2048x4.numel
  dot_S2048x768_S768x64_S2048x64_1_0_0_1_n_n_wf : DotDims.WF S2048x768 S768x64 S2048x64 [1] [0] [0] [1] [] []
  dot_S2048x64_S64x32_S2048x32_1_0_0_1_n_n_wf : DotDims.WF S2048x64 S64x32 S2048x32 [1] [0] [0] [1] [] []
  dot_S2048x32_S32x4_S2048x4_1_0_0_1_n_n_wf : DotDims.WF S2048x32 S32x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32.size a ≤ S4x32.size a
  hwx0_3 : ∀ i : grid0.Coords, EltTy.bits .f32 = 32 ∨ (Rect.block (s := S4x32) S4x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4.size a ≤ S65536x4.size a
  hwx0_4 : ∀ i : grid0.Coords, EltTy.bits .f32 = 32 ∨ (Rect.block (s := S65536x4) S2048x4.size (cc0_transform_4 i) (hinb0_4 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x4_S2048x4_1_0_0_1_n_n : DotDims S2048x32 S32x4 S2048x4 where
  lhsContracting := [1]
  rhsContracting := [0]
  lhsNonContracting := [0]
  rhsNonContracting := [1]
  lhsBatch := []
  rhsBatch := []
  wf := dot_S2048x32_S32x4_S2048x4_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x768 : Shape := ⟨2, ![65536, 768]⟩
abbrev S64x768 : Shape := ⟨2, ![64, 768]⟩
abbrev S32x64 : Shape := ⟨2, ![32, 64]⟩
abbrev S4x32 : Shape := ⟨2, ![4, 32]⟩
abbrev S_ : Shape := ⟨0, ![]⟩
abbrev S65536 : Shape := ⟨1, ![65536]⟩
abbrev S65536x1 : Shape := ⟨2, ![65536, 1]⟩
abbrev S65536x64 : Shape := ⟨2, ![65536, 64]⟩
abbrev S65536x32 : Shape := ⟨2, ![65536, 32]⟩
abbrev S65536x4 : Shape := ⟨2, ![65536, 4]⟩

abbrev nBuf : Space → Nat
  | .hbm => 124
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S64x768, .f32⟩
  | .hbm, ⟨2, _⟩ => ⟨S32x64, .f32⟩
  | .hbm, ⟨3, _⟩ => ⟨S4x32, .f32⟩
  | .hbm, ⟨4, _⟩ => ⟨S_, .f32⟩
  | .hbm, ⟨5, _⟩ => ⟨S64x768, .f32⟩
  | .hbm, ⟨6, _⟩ => ⟨S64x768, .i1⟩
  | .hbm, ⟨7, _⟩ => ⟨S_, .f32⟩
  | .hbm, ⟨8, _⟩ => ⟨S_, .f32⟩
  | .hbm, ⟨9, _⟩ => ⟨S64x768, .f32⟩
  | .hbm, ⟨10, _⟩ => ⟨S64x768, .f32⟩
  | .hbm, ⟨11, _⟩ => ⟨S64x768, .f32⟩
  | .hbm, ⟨12, _⟩ => ⟨S64x768, .f32⟩
  | .hbm, ⟨13, _⟩ => ⟨S64x768, .f32⟩
  | .hbm, ⟨14, _⟩ => ⟨S64x768, .f32⟩
  | .hbm, ⟨15, _⟩ => ⟨S_, .f32⟩
  | .hbm, ⟨16, _⟩ => ⟨S65536x768, .f32⟩
  | .hbm, ⟨17, _⟩ => ⟨S65536x768, .f32⟩
  | .hbm, ⟨18, _⟩ => ⟨S_, .f32⟩
  | .hbm, ⟨19, _⟩ => ⟨S65536x768, .f32⟩
  | .hbm, ⟨20, _⟩ => ⟨S65536x768, .f32⟩
  | .hbm, ⟨21, _⟩ => ⟨S_, .f32⟩
  | .hbm, ⟨22, _⟩ => ⟨S65536x768, .f32⟩
  | .hbm, ⟨23, _⟩ => ⟨S65536x768, .f32⟩
  | .hbm, ⟨24, _⟩ => ⟨S_, .f32⟩
  | .hbm, ⟨25, _⟩ => ⟨S65536x768, .f32⟩
  | .hbm, ⟨26, _⟩ => ⟨S65536x768, .f32⟩
  | .hbm, ⟨27, _⟩ => ⟨S65536x768, .f32⟩
  | .hbm, ⟨28, _⟩ => ⟨S65536x768, .f32⟩
  | .hbm, ⟨29, _⟩ => ⟨S65536x768, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S65536x64, .f32⟩
  | .hbm, ⟨34, _⟩ => ⟨S65536x768, .f32⟩
  | .hbm, ⟨35, _⟩ => ⟨S64x768, .f32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S65536x64, .f32⟩
  | .hbm, ⟨43, _⟩ => ⟨S65536x64, .f32⟩
  | .hbm, ⟨44, _⟩ => ⟨S_, .f32⟩
  | .hbm, ⟨45, _⟩ => ⟨S32x64, .f32⟩
  | .hbm, ⟨46, _⟩ => ⟨S32x64, .i1⟩
  | .hbm, ⟨47, _⟩ => ⟨S_, .f32⟩
  | .hbm, ⟨48, _⟩ => ⟨S_, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S_, .f32⟩
  | .hbm, ⟨56, _⟩ => ⟨S65536x64, .f32⟩
  | .hbm, ⟨57, _⟩ => ⟨S65536x64, .f32⟩
  | .hbm, ⟨58, _⟩ => ⟨S_, .f32⟩
  | .hbm, ⟨59, _⟩ => ⟨S65536x64, .f32⟩
  | .hbm, ⟨60, _⟩ => ⟨S65536x64, .f32⟩
  | .hbm, ⟨61, _⟩ => ⟨S_, .f32⟩
  | .hbm, ⟨62, _⟩ => ⟨S65536x64, .f32⟩
  | .hbm, ⟨63, _⟩ => ⟨S65536x64, .f32⟩
  | .hbm, ⟨64, _⟩ => ⟨S_, .f32⟩
  | .hbm, ⟨65, _⟩ => ⟨S65536x64, .f32⟩
  | .hbm, ⟨66, _⟩ => ⟨S65536x64, .f32⟩
  | .hbm, ⟨67, _⟩ => ⟨S65536x64, .f32⟩
  | .hbm, ⟨68, _⟩ => ⟨S65536x64, .f32⟩
  | .hbm, ⟨69, _⟩ => ⟨S65536x64, .f32⟩
  | .hbm, ⟨70, _⟩ => ⟨S_, .f32⟩
  | .hbm, ⟨71, _⟩ => ⟨S65536, .f32⟩
  | .hbm, ⟨72, _⟩ => ⟨S65536x1, .f32⟩
  | .hbm, ⟨73, _⟩ => ⟨S65536x32, .f32⟩
  | .hbm, ⟨74, _⟩ => ⟨S65536x64, .f32⟩
  | .hbm, ⟨75, _⟩ => ⟨S32x64, .f32⟩
  | .hbm, ⟨76, _⟩ => ⟨S65536x32, .f32⟩
  | .hbm, ⟨77, _⟩ => ⟨S65536x32, .f32⟩
  | .hbm, ⟨78, _⟩ => ⟨S65536x32, .f32⟩
  | .hbm, ⟨79, _⟩ => ⟨S65536x32, .f32⟩
  | .hbm, ⟨80, _⟩ => ⟨S65536x32, .f32⟩
  | .hbm, ⟨81, _⟩ => ⟨S_, .f32⟩
  | .hbm, ⟨82, _⟩ => ⟨S65536x32, .f32⟩
  | .hbm, ⟨83, _⟩ => ⟨S65536x32, .f32⟩
  | .hbm, ⟨84, _⟩ => ⟨S_, .f32⟩
  | .hbm, ⟨85, _⟩ => ⟨S4x32, .f32⟩
  | .hbm, ⟨86, _⟩ => ⟨S4x32, .i1⟩
  | .hbm, ⟨87, _⟩ => ⟨S_, .f32⟩
  | .hbm, ⟨88, _⟩ => ⟨S_, .f32⟩
  | .hbm, ⟨89, _⟩ => ⟨S4x32, .f32⟩
  | .hbm, ⟨90, _⟩ => ⟨S4x32, .f32⟩
  | .hbm, ⟨91, _⟩ => ⟨S4x32, .f32⟩
  | .hbm, ⟨92, _⟩ => ⟨S4x32, .f32⟩
  | .hbm, ⟨93, _⟩ => ⟨S4x32, .f32⟩
  | .hbm, ⟨94, _⟩ => ⟨S4x32, .f32⟩
  | .hbm, ⟨95, _⟩ => ⟨S_, .f32⟩
  | .hbm, ⟨96, _⟩ => ⟨S65536x32, .f32⟩
  | .hbm, ⟨97, _⟩ => ⟨S65536x32, .f32⟩
  | .hbm, ⟨98, _⟩ => ⟨S_, .f32⟩
  | .hbm, ⟨99, _⟩ => ⟨S65536x32, .f32⟩
  | .hbm, ⟨100, _⟩ => ⟨S65536x32, .f32⟩
  | .hbm, ⟨101, _⟩ => ⟨S_, .f32⟩
  | .hbm, ⟨102, _⟩ => ⟨S65536x32, .f32⟩
  | .hbm, ⟨103, _⟩ => ⟨S65536x32, .f32⟩
  | .hbm, ⟨104, _⟩ => ⟨S_, .f32⟩
  | .hbm, ⟨105, _⟩ => ⟨S65536x32, .f32⟩
  | .hbm, ⟨106, _⟩ => ⟨S65536x32, .f32⟩
  | .hbm, ⟨107, _⟩ => ⟨S65536x32, .f32⟩
  | .hbm, ⟨108, _⟩ => ⟨S65536x32, .f32⟩
  | .hbm, ⟨109, _⟩ => ⟨S65536x32, .f32⟩
  | .hbm, ⟨110, _⟩ => ⟨S_, .f32⟩
  | .hbm, ⟨111, _⟩ => ⟨S65536, .f32⟩
  | .hbm, ⟨112, _⟩ => ⟨S65536x1, .f32⟩
  | .hbm, ⟨113, _⟩ => ⟨S65536x4, .f32⟩
  | .hbm, ⟨114, _⟩ => ⟨S65536x32, .f32⟩
  | .hbm, ⟨115, _⟩ => ⟨S4x32, .f32⟩
  | .hbm, ⟨116, _⟩ => ⟨S65536x4, .f32⟩
  | .hbm, ⟨117, _⟩ => ⟨S65536x4, .f32⟩
  | .hbm, ⟨118, _⟩ => ⟨S65536x4, .f32⟩
  | .hbm, ⟨119, _⟩ => ⟨S65536x4, .f32⟩
  | .hbm, ⟨120, _⟩ => ⟨S65536x4, .f32⟩
  | .hbm, ⟨121, _⟩ => ⟨S_, .f32⟩
  | .hbm, ⟨122, _⟩ => ⟨S65536x4, .f32⟩
  | .hbm, ⟨123, _⟩ => ⟨S65536x4, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_v40 : Ref sig .tc := ⟨.hbm, 63, rfl⟩
abbrev main_cst_14 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_15 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_cst_18 : Ref sig .tc := ⟨.hbm, 87, rfl⟩
abbrev main_cst_19 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_v65 : Ref sig .tc := ⟨.hbm, 97, rfl⟩
abbrev main_cst_21 : Ref sig .tc := ⟨.hbm, 98, rfl⟩
abbrev main_v66 : Ref sig .tc := ⟨.hbm, 99, rfl⟩
abbrev main_v67 : Ref sig .tc := ⟨.hbm, 100, rfl⟩
abbrev main_cst_22 : Ref sig .tc := ⟨.hbm, 101, rfl⟩
abbrev main_v68 : Ref sig .tc := ⟨.hbm, 102, rfl⟩
abbrev main_v69 : Ref sig .tc := ⟨.hbm, 103, rfl⟩
abbrev main_cst_23 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_24 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_25 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]

class Facts₀ : Prop where
  bcast_S_S64x768 : S_.BroadcastsInDim S64x768 (![] : Fin 0 → Fin S64x768.rank)
  bcast_S_S65536x768 : S_.BroadcastsInDim S65536x768 (![] : Fin 0 → Fin S65536x768.rank)
  reducesTo_S65536x768_S65536_d1 : S65536x768.ReducesTo [1] S65536
  h_S_ : 0 < S_.numel
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x64 : S_.BroadcastsInDim S65536x64 (![] : Fin 0 → Fin S65536x64.rank)
  bcast_S_S32x64 : S_.BroadcastsInDim S32x64 (![] : Fin 0 → Fin S32x64.rank)
  reducesTo_S65536x64_S65536_d1 : S65536x64.ReducesTo [1] S65536
  bcast_S65536x1_S65536x32_0_1 : S65536x1.BroadcastsInDim S65536x32 (![0, 1] : Fin 2 → Fin S65536x32.rank)
  bcast_S_S65536x32 : S_.BroadcastsInDim S65536x32 (![] : Fin 0 → Fin S65536x32.rank)
  bcast_S_S4x32 : S_.BroadcastsInDim S4x32 (![] : Fin 0 → Fin S4x32.rank)
  reducesTo_S65536x32_S65536_d1 : S65536x32.ReducesTo [1] S65536
  bcast_S65536x1_S65536x4_0_1 : S65536x1.BroadcastsInDim S65536x4 (![0, 1] : Fin 2 → Fin S65536x4.rank)
  bcast_S_S65536x4 : S_.BroadcastsInDim S65536x4 (![] : Fin 0 → Fin S65536x4.rank)
  dot_S65536x768_S64x768_S65536x64_1_1_0_0_n_n_wf : DotDims.WF S65536x768 S64x768 S65536x64 [1] [1] [0] [0] [] []
  dot_S65536x64_S32x64_S65536x32_1_1_0_0_n_n_wf : DotDims.WF S65536x64 S32x64 S65536x32 [1] [1] [0] [0] [] []
  dot_S65536x32_S4x32_S65536x4_1_1_0_0_n_n_wf : DotDims.WF S65536x32 S4x32 S65536x4 [1] [1] [0] [0] [] []

variable [Facts₀]

def dot_S65536x768_S64x768_S65536x64_1_1_0_0_n_n : DotDims S65536x768 S64x768 S65536x64 where
  lhsContracting := [1]
  rhsContracting := [1]
  lhsNonContracting := [0]
  rhsNonContracting := [0]
  lhsBatch := []
  rhsBatch := []
  wf := dot_S65536x768_S64x768_S65536x64_1_1_0_0_n_n_wf
def dot_S65536x64_S32x64_S65536x32_1_1_0_0_n_n : DotDims S65536x64 S32x64 S65536x32 where
  lhsContracting := [1]
  rhsContracting := [1]
  lhsNonContracting := [0]
  rhsNonContracting := [0]
  lhsBatch := []
  rhsBatch := []
  wf := dot_S65536x64_S32x64_S65536x32_1_1_0_0_n_n_wf
def dot_S65536x32_S4x32_S65536x4_1_1_0_0_n_n : DotDims S65536x32 S4x32 S65536x4 where
  lhsContracting := [1]
  rhsContracting := [1]
  lhsNonContracting := [0]
  rhsNonContracting := [0]
  lhsBatch := []
  rhsBatch := []
  wf := dot_S65536x32_S4x32_S65536x4_1_1_0_0_n_n_wf

class Facts : Prop extends Facts₀ where

variable [Facts]
-- ==== Proof.Finite.lean ====
import proofs.«118821_j20512763805724_1_alg».proof.Proof.Gen.Pre_finite_inputs
import Idealize.ShloMosaic.Lib.ReduceAll
import Idealize.ShloMosaic.Lib.ValueIdx
import Idealize.ShloMosaic.PureOps.Ideal.Laws
import Idealize.ShloMosaic.Lib.Pipeline.Value
import Mathlib.Data.EReal.Basic

/-!
  The precondition `finite_inputs`, read back at the ideal instance: every entry of the four
  argument arrays is a real number.

  The printed predicate takes, for each array, the absolute value of every entry, compares it
  strictly below the word of +infinity, and folds the one-bit answers by `and` over both axes;
  the four folds are then conjoined. If the whole is 1 then each fold is 1, so each comparison is
  1, so `max a (-a) < ⊤` at each entry `a`; on the extended reals that excludes `⊥` and `⊤`,
  and what remains is the coercion of a real.
-/

noncomputable section

namespace Cert.Finite

open Idealize.ShloMosaic
open Cert.Pre_finite_inputs

/-- The word `0x7F800000` (sign 0, exponent all ones, fraction 0) denotes `⊤`. -/
theorem ofBits_inf : Ideal.ofBits .f32 0x7F800000#32 = (⊤ : EReal) := by
  simp [Ideal.ofBits, Ideal.ieee]

/-- An extended real whose absolute value `max a (-a)` is strictly below `⊤` is (the coercion of) a real:
    at `⊥` the negation is `⊤`, at `⊤` the value itself is, and neither is below `⊤`. -/
theorem real_of_abs_lt_top (a : EReal) (h : max a (-a) < ⊤) : a = ((a.toReal : ℝ) : EReal) := by
  induction a using EReal.rec with
  | bot => simp at h
  | top => simp at h
  | coe r => rw [EReal.toReal_coe]

/-- One entry: if the printed comparison `|a| < +inf` answers 1 then `a` is a real. -/
theorem real_of_cmp (a : EReal)
    (h : Ideal.cmp .olt (max a (-a)) (Ideal.ofBits .f32 0x7F800000#32) = 1#1) : a = ((a.toReal : ℝ) : EReal) := by
  refine real_of_abs_lt_top a ?_
  rw [ofBits_inf] at h
  by_contra hn
  simp [Ideal.cmp, hn] at h

/-- The rank-0 shape has one index. -/
instance : Subsingleton S_.Idx := ⟨fun a b => funext fun d => d.elim0⟩

/-- One array: if the fold by `and` of the comparisons `|x i| < +inf` over all of `x` is 1, every entry of `x` is a real. -/
theorem real_of_all {S : Shape} {axes : List (Fin S.rank)}
    (hb : S_.BroadcastsInDim S (![] : Fin 0 → Fin S.rank)) (hr : S.ReducesTo axes S_) (hu : 0 < S_.numel)
    (x : FVec Ideal S .f32) (init : IVec S_ 1) (j : S_.Idx)
    (e : Host.reduce IntOp.andi
          (cmpf .olt (Host.absf x) (broadcastInDim S ![] hb (constant (F := Ideal) S_ .f32 0x7F800000#32))) init hr hu j = 1#1)
    (i : S.Idx) : x i = (((x i).toReal : ℝ) : EReal) :=
  real_of_cmp (x i) (Host.reduce_andi_all _ init hr hu j e i)

variable [Cert.Pre_finite_inputs.Facts]

/-- Under `finite_inputs` every entry of each of the four argument arrays is a real number. -/
theorem real_of_pre (x0 : FVec Ideal S65536x768 .f32) (x1 : FVec Ideal S64x768 .f32)
    (x2 : FVec Ideal S32x64 .f32) (x3 : FVec Ideal S4x32 .f32)
    (h : Cert.Pre_finite_inputs.fn (F := Ideal) x0 x1 x2 x3 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal)) := by
  have h0 := congrFun h ValueIdx.ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all _ _ _ x0 _ _ e0, real_of_all _ _ _ x1 _ _ e1,
    real_of_all _ _ _ x2 _ _ e2, real_of_all _ _ _ x3 _ _ e3⟩

end Cert.Finite

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Consts.lean ====
/-
  The float constants the two programs spell, as the real numbers their bit patterns denote.

  Each pattern is an IEEE single: sign, eight exponent bits, twenty-three fraction bits. All the constants here
  are small integers (0, ±1, 2, 4, the layer widths 768, 64, 32 and their squares 589824, 4096, 1024), so each
  is a power of two times an integer and the pattern's value is computed exactly.
-/
import Idealize.ShloMosaic.PureOps.Ideal
import Idealize.ShloMosaic.PureOps.Ideal.Laws

noncomputable section

namespace Cert.Consts

open Idealize.ShloMosaic

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_768 : Ideal.ofBits .f32 0x44400000#32 = ((768 : ℝ) : EReal) := by
  simp [Ideal.ofBits, Ideal.ieee, -EReal.coe_mul]; norm_num

theorem ofBits_589824 : Ideal.ofBits .f32 0x49100000#32 = ((589824 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

end Cert.Consts

end
-- ==== Proof.Spec.lean ====
/-
  What both programs compute, as a function of real arguments, and the laws that join their two spellings.

  One layer takes a row p of L reals and a weight matrix w (O rows of L reals) and returns, for each output o,

      ( cL + (Σ_k e_k · s(w o k))² − Σ_k e_k² ) / cLL        with  e_k = 2·p_k − 1,   s(x) = 1 if x ≥ 0, else −1,

  where cL and cLL are the constants the programs spell (the width L and its square). The network is three such
  layers, 768 → 64 → 32 → 4, applied to one row of the input at a time.

  The kernel spells the layer exactly so. The reference spells the first constant as the sum Σ_k (4·p_k·(1 − p_k) + e_k²),
  the weight as w + (s(w) − w), and the last sum as Σ_k e_k² · (weight)². Over the reals
  4p(1 − p) + (2p − 1)² = 1, w + (s − w) = s and s² = 1, so the two spellings agree; over the extended reals these
  cancellations need the arguments to be real numbers, which the precondition gives for the inputs and which a
  layer then hands on: its value is a quotient of real sums by a nonzero constant.
-/
import Idealize.ShloMosaic.PureOps.Ideal
import Idealize.ShloMosaic.PureOps.Ideal.Laws
import Idealize.ShloMosaic.Lib.ValueIdx

noncomputable section

namespace Cert.Spec

open Idealize.ShloMosaic

/-- The binarised weight: +1 on the nonnegative reals, −1 below zero. -/
def sgn (w : ℝ) : ℝ := if 0 ≤ w then 1 else -1

/-- A binarised weight squares to one. -/
theorem sgn_mul_self (w : ℝ) : sgn w * sgn w = 1 := by
  unfold sgn
  split <;> norm_num

/-- One layer on one row: outputs indexed by the weight's rows. -/
def layerRow {L O : ℕ} (cL cLL : ℝ) (p : Fin L → ℝ) (w : Fin O → Fin L → ℝ) (o : Fin O) : ℝ :=
  (cL + (∑ k, (2 * p k - 1) * sgn (w o k)) * (∑ k, (2 * p k - 1) * sgn (w o k)) - ∑ k, (2 * p k - 1) * (2 * p k - 1)) / cLL

/-- The three layers on one input row. -/
def net (x : Fin 768 → ℝ) (w1 : Fin 64 → Fin 768 → ℝ) (w2 : Fin 32 → Fin 64 → ℝ) (w3 : Fin 4 → Fin 32 → ℝ) : Fin 4 → ℝ :=
  layerRow 32 1024 (layerRow 64 4096 (layerRow 768 589824 x w1) w2) w3

/-- The coercion of the reals into the extended reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of reals, taken in the extended reals, is the real sum. -/
theorem sum_coe_mul {ι : Type} [Fintype ι] (a b : ι → ℝ) :
    ∑ k, ((a k : ℝ) : EReal) * ((b k : ℝ) : EReal) = ((∑ k, a k * b k : ℝ) : EReal) := by
  rw [coe_sum]
  exact Finset.sum_congr rfl fun k _ => (EReal.coe_mul _ _).symm

/-- The programs' choice between the words of +1 and −1 by the comparison `w ≥ 0`, at a real `w`. -/
theorem select_sign (w : ℝ) :
    Scalar.select (Ideal.cmp .oge ((w : ℝ) : EReal) ((0 : ℝ) : EReal)) ((1 : ℝ) : EReal) ((-1 : ℝ) : EReal) = ((sgn w : ℝ) : EReal) := by
  show Scalar.select (BitVec.ofBool (decide (((0 : ℝ) : EReal) ≤ ((w : ℝ) : EReal)))) _ _ = _
  unfold sgn
  by_cases h : 0 ≤ w
  · have h' : ((0 : ℝ) : EReal) ≤ ((w : ℝ) : EReal) := EReal.coe_le_coe_iff.2 h
    rw [if_pos h, decide_eq_true h']
    exact ValueIdx.select_one _ _
  · have h' : ¬ ((0 : ℝ) : EReal) ≤ ((w : ℝ) : EReal) := fun hh => h (EReal.coe_le_coe_iff.1 hh)
    rw [if_neg h, decide_eq_false h']
    exact ValueIdx.select_zero _ _

/-- e = 2·p − 1 at a real p. -/
theorem e_coe (p : ℝ) : ((2 : ℝ) : EReal) * ((p : ℝ) : EReal) - ((1 : ℝ) : EReal) = ((2 * p - 1 : ℝ) : EReal) := by
  rw [← EReal.coe_mul, ← EReal.coe_sub]

/-- A layer's closing arithmetic on real operands: the division by the nonzero constant is the real quotient. -/
theorem close_coe (cL cLL m q : ℝ) (h : cLL ≠ 0) :
    Ideal.div (((cL : ℝ) : EReal) + ((m : ℝ) : EReal) * ((m : ℝ) : EReal) - ((q : ℝ) : EReal)) ((cLL : ℝ) : EReal)
      = (((cL + m * m - q) / cLL : ℝ) : EReal) := by
  rw [Ideal.div_coe h, ← EReal.coe_mul, ← EReal.coe_add, ← EReal.coe_sub, ← EReal.coe_mul, mul_one_div]

/-- The reference's weight w + (s(w) − w) is s(w) at a real w. -/
theorem ste_coe (w : ℝ) : ((w : ℝ) : EReal) + (((sgn w : ℝ) : EReal) - ((w : ℝ) : EReal)) = ((sgn w : ℝ) : EReal) := by
  rw [← EReal.coe_sub, ← EReal.coe_add]
  congr 1
  ring

/-- The reference's summand 4·p·(1 − p) + e·e at a real p is one. -/
theorem one_coe (p : ℝ) :
    ((4 : ℝ) : EReal) * ((p : ℝ) : EReal) * (((1 : ℝ) : EReal) - ((p : ℝ) : EReal)) + ((2 * p - 1 : ℝ) : EReal) * ((2 * p - 1 : ℝ) : EReal)
      = ((1 : ℝ) : EReal) := by
  rw [← EReal.coe_mul, ← EReal.coe_sub, ← EReal.coe_mul, ← EReal.coe_mul, ← EReal.coe_add]
  congr 1
  ring

/-- The reference's first term: zero plus a sum of L ones is the width L. -/
theorem sum_ones (L : ℕ) : ((0 : ℝ) : EReal) + ∑ _k : Fin L, ((1 : ℝ) : EReal) = (((L : ℕ) : ℝ) : EReal) := by
  rw [← coe_sum, ← EReal.coe_add]
  congr 1
  simp

end Cert.Spec

end
-- ==== Proof.KLayer.lean ====
/-
  One layer of the kernel read at an index, for any sizes: R rows in the block, L inputs, O outputs.

  The kernel forms e = 2·p − 1, multiplies e (recast to a narrower format, which over the extended reals changes
  nothing) by the transposed sign matrix on the matrix unit, sums the squares of e along each row, and closes with
  (c + s1·s1 − Σe²) / c'. Read at the entry (b, o) of the block, with e and the sign matrix known to hold real
  numbers, every piece is a finite real sum, and the entry is the real quotient.
-/
import Idealize.ShloMosaic.PureOps.Ideal.Laws
import Idealize.ShloMosaic.Lib.ValueIdx
import Idealize.ShloMosaic.Lib.Pipeline.Value
import proofs.«118821_j20512763805724_1_alg».proof.Proof.LibPlainDot
import proofs.«118821_j20512763805724_1_alg».proof.Proof.Consts
import proofs.«118821_j20512763805724_1_alg».proof.Proof.Spec

noncomputable section

namespace Cert.KLayer

open Idealize.ShloMosaic Idealize.ShloMosaic.ValueIdx Cert.Spec

variable {R L O : Nat}

/-- A scalar constant of the kernel is the value of its pattern. -/
theorem scalar_ofBits (w : BitVec 32) : (Scalar.ofBits .f32 w : Ideal .f32) = Ideal.ofBits .f32 w := rfl

/-- A vector of row values recast as a column and broadcast along the rows reads, at (p, q), the vector at p. -/
theorem colBroadcastTo_apply {α : Type} {C : Nat} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (p : Fin R) (q : Fin C) :
    broadcastTo ⟨2, ![R, C]⟩ (shapeCast ⟨2, ![R, 1]⟩ v h1) h2 (ix2 p q) = v (ix1 p) := by
  rw [broadcastTo_apply (shapeCast ⟨2, ![R, 1]⟩ v h1) h2 (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])]
  exact shapeCast_apply v h1 (ix2 p (0 : Fin 1)) (ix1 p) (by
    rw [Shape.rowMajor_val_one, Shape.rowMajor_val_two]
    show p.val = p.val * 1 + 0
    omega)

/-- The row index b with the summed coordinate k put back is (b, k). -/
theorem lift_row (h : (⟨2, ![R, L]⟩ : Shape).Reduces [1] (⟨1, ![R]⟩ : Shape)) (b : Fin R)
    (k : Fin ((⟨2, ![R, L]⟩ : Shape).size 1)) : h.lift (ix1 b) k = ix2 b (⟨k.val, k.isLt⟩ : Fin L) := by
  funext c; apply Fin.ext
  fin_cases c <;> rfl

/-- A sum along the second axis, read at row b, is the sum of that row. -/
theorem rowSum_apply (src : FVec Ideal ⟨2, ![R, L]⟩ .f32) (h : (⟨2, ![R, L]⟩ : Shape).Reduces [1] (⟨1, ![R]⟩ : Shape))
    (hφ : FKind.Formats .f32) (hacc : (0x00000000#32 : BitVec 32) = 0x00000000#32) (b : Fin R) :
    multiReduction .add [1] ⟨1, ![R]⟩ src 0x00000000#32 h hφ hacc (ix1 b) = ∑ k : Fin L, src (ix2 b k) := by
  refine (Ideal.multiReduction_add_single src 0x00000000#32 h hφ hacc (ix1 b)).trans ?_
  exact Finset.sum_congr rfl fun k _ => congrArg src (lift_row h b k)

/-- e = 2·p − 1 at an entry where p is a real. -/
theorem e_apply (p : FVec Ideal ⟨2, ![R, L]⟩ .f32) (pr : Fin R → Fin L → ℝ)
    (hp : ∀ b k, p (ix2 b k) = ((pr b k : ℝ) : EReal)) (b : Fin R) (k : Fin L) :
    subf (mulf (broadcast ⟨2, ![R, L]⟩ (Scalar.ofBits .f32 0x40000000#32)) p) (broadcast ⟨2, ![R, L]⟩ (Scalar.ofBits .f32 0x3F800000#32)) (ix2 b k)
      = ((2 * pr b k - 1 : ℝ) : EReal) := by
  show Ideal.ofBits .f32 0x40000000#32 * p (ix2 b k) - Ideal.ofBits .f32 0x3F800000#32 = _
  rw [Consts.ofBits_two, Consts.ofBits_one, hp]
  exact e_coe _

/-- The sign matrix at an entry where the weight is a real. -/
theorem sign_apply (w : FVec Ideal ⟨2, ![O, L]⟩ .f32) (wr : Fin O → Fin L → ℝ)
    (hw : ∀ o k, w (ix2 o k) = ((wr o k : ℝ) : EReal)) (o : Fin O) (k : Fin L) :
    select (cmpf .oge w (broadcast ⟨2, ![O, L]⟩ (Scalar.ofBits .f32 0x00000000#32)))
        (broadcast ⟨2, ![O, L]⟩ (Scalar.ofBits (F := Ideal) .f32 0x3F800000#32)) (broadcast ⟨2, ![O, L]⟩ (Scalar.ofBits (F := Ideal) .f32 0xBF800000#32)) (ix2 o k)
      = ((sgn (wr o k) : ℝ) : EReal) := by
  show Scalar.select (Ideal.cmp .oge (w (ix2 o k)) (Ideal.ofBits .f32 0x00000000#32)) (Ideal.ofBits .f32 0x3F800000#32) (Ideal.ofBits .f32 0xBF800000#32) = _
  rw [Consts.ofBits_zero, Consts.ofBits_one, Consts.ofBits_neg_one, hw]
  exact select_sign _

/-- The layer's closing expression at the entry (b, o): with e (in both its formats) and the transposed sign matrix
    holding reals, it is the real quotient (c + m·m − q) / c' of the row's two sums. -/
theorem tail_apply
    (wL wLL : BitVec 32) (cL cLL : ℝ) (hwL : Ideal.ofBits .f32 wL = ((cL : ℝ) : EReal))
    (hwLL : Ideal.ofBits .f32 wLL = ((cLL : ℝ) : EReal)) (hcLL : cLL ≠ 0)
    (e : FVec Ideal ⟨2, ![R, L]⟩ .f32) (eb : FVec Ideal ⟨2, ![R, L]⟩ .bf16) (wT : FVec Ideal ⟨2, ![L, O]⟩ .bf16)
    (er : Fin R → Fin L → ℝ) (sr : Fin O → Fin L → ℝ)
    (he : ∀ b k, e (ix2 b k) = ((er b k : ℝ) : EReal)) (heb : ∀ b k, eb (ix2 b k) = ((er b k : ℝ) : EReal))
    (hwT : ∀ k o, wT (ix2 k o) = ((sr o k : ℝ) : EReal))
    (hred : (⟨2, ![R, L]⟩ : Shape).Reduces [1] (⟨1, ![R]⟩ : Shape)) (hφ : FKind.Formats .f32)
    (hacc : (0x00000000#32 : BitVec 32) = 0x00000000#32)
    (hsc : (⟨1, ![R]⟩ : Shape).ShapeCasts ⟨2, ![R, 1]⟩) (hbc : (⟨2, ![R, 1]⟩ : Shape).Broadcasts ⟨2, ![R, O]⟩)
    (b : Fin R) (o : Fin O) :
    divf (subf (addf (broadcast ⟨2, ![R, O]⟩ (Scalar.ofBits .f32 wL))
                  (mulf (matmul (DotDims.plain R L O) none eb wT (constant ⟨2, ![R, O]⟩ .f32 0x00000000#32))
                        (matmul (DotDims.plain R L O) none eb wT (constant ⟨2, ![R, O]⟩ .f32 0x00000000#32))))
            (broadcastTo ⟨2, ![R, O]⟩ (shapeCast ⟨2, ![R, 1]⟩ (multiReduction .add [1] ⟨1, ![R]⟩ (mulf e e) 0x00000000#32 hred hφ hacc) hsc) hbc))
        (broadcast ⟨2, ![R, O]⟩ (Scalar.ofBits .f32 wLL)) (ix2 b o)
      = (((cL + (∑ k, er b k * sr o k) * (∑ k, er b k * sr o k) - ∑ k, er b k * er b k) / cLL : ℝ) : EReal) := by
  have hM : matmul (DotDims.plain R L O) none eb wT (constant ⟨2, ![R, O]⟩ .f32 0x00000000#32) (ix2 b o)
      = ((∑ k, er b k * sr o k : ℝ) : EReal) := by
    refine (LibPlainDot.matmul_plain_zero none eb wT (ix2 b o)).trans ?_
    rw [← sum_coe_mul]
    exact Finset.sum_congr rfl fun k _ => congrArg₂ (· * ·) (heb b k) (hwT k o)
  have hQ : broadcastTo ⟨2, ![R, O]⟩ (shapeCast ⟨2, ![R, 1]⟩ (multiReduction .add [1] ⟨1, ![R]⟩ (mulf e e) 0x00000000#32 hred hφ hacc) hsc) hbc (ix2 b o)
      = ((∑ k, er b k * er b k : ℝ) : EReal) := by
    refine (colBroadcastTo_apply _ hsc hbc b o).trans ?_
    refine (rowSum_apply (mulf e e) hred hφ hacc b).trans ?_
    rw [← sum_coe_mul]
    exact Finset.sum_congr rfl fun k _ => congrArg₂ (· * ·) (he b k) (he b k)
  rw [divf_apply, subf_apply, addf_apply, mulf_apply, hM, hQ, broadcast_apply, broadcast_apply, scalar_ofBits, scalar_ofBits, hwL, hwLL]
  exact close_coe cL cLL _ _ hcLL

end Cert.KLayer

end
-- ==== Proof.KernelPay.lean ====
/-
  The value the kernel stores for one block, entry by entry.

  The body loads the block's 2048 rows of the input and the three weight matrices whole, and stores one value: the three
  layers applied in turn. With the loaded values real numbers, each layer's entry (b, o) is the layer function of row b
  of the layer before (one layer read at an index is the general lemma; here it is used at the three sizes), so the
  stored entry (b, o) is the network of row b of the block at output o.
-/
import proofs.«118821_j20512763805724_1_alg».proof.Proof.Gen.KernelIdeal.Skeleton
import proofs.«118821_j20512763805724_1_alg».proof.Proof.KLayer

noncomputable section

namespace Cert.KernelPay

open Idealize.ShloMosaic Idealize.ShloMosaic.ValueIdx Cert.Spec Cert.KLayer
open Cert.KernelIdeal Cert.KernelIdeal.Gen

variable (v0 : FVec Ideal S2048x768 .f32) (v1 : FVec Ideal S64x768 .f32) (v25 : FVec Ideal S32x64 .f32) (v49 : FVec Ideal S4x32 .f32)
variable (xr : Fin 2048 → Fin 768 → ℝ) (w1r : Fin 64 → Fin 768 → ℝ) (w2r : Fin 32 → Fin 64 → ℝ) (w3r : Fin 4 → Fin 32 → ℝ)
variable (h0 : ∀ b k, v0 (ix2 b k) = ((xr b k : ℝ) : EReal)) (h1 : ∀ o k, v1 (ix2 o k) = ((w1r o k : ℝ) : EReal))
variable (h2 : ∀ o k, v25 (ix2 o k) = ((w2r o k : ℝ) : EReal)) (h3 : ∀ o k, v49 (ix2 o k) = ((w3r o k : ℝ) : EReal))

include h0 h1 in
/-- The second layer's e, at (b, k): 2·(first layer of row b at k) − 1. -/
theorem pay2_apply (b : Fin 2048) (k : Fin 64) :
    k0_pay2 (F := Ideal) v0 v1 (ix2 b k) = ((2 * layerRow 768 589824 (xr b) w1r k - 1 : ℝ) : EReal) := by
  unfold k0_pay2
  refine e_apply _ (fun b k => layerRow 768 589824 (xr b) w1r k) (fun b k => ?_) b k
  refine (tail_apply (R := 2048) (L := 768) (O := 64) 0x44400000#32 0x49100000#32 768 589824 Consts.ofBits_768 Consts.ofBits_589824 (by norm_num)
    _ _ _ (fun b j => 2 * xr b j - 1) (fun o j => sgn (w1r o j)) ?he ?heb ?hwT _ _ _ _ _ b k).trans ?_
  case he => exact fun b j => e_apply v0 xr h0 b j
  case heb => exact fun b j => e_apply v0 xr h0 b j
  case hwT => exact fun j o => (LibPlainDot.transpose2_apply _ _ j o).trans (sign_apply v1 w1r h1 o j)
  rfl

include h0 h1 in
/-- The same in the narrower format the matrix unit takes. -/
theorem pay3_apply (b : Fin 2048) (k : Fin 64) :
    k0_pay3 (F := Ideal) v0 v1 (ix2 b k) = ((2 * layerRow 768 589824 (xr b) w1r k - 1 : ℝ) : EReal) :=
  pay2_apply v0 v1 xr w1r h0 h1 b k

include h2 in
/-- The second layer's sign matrix, transposed, at (k, o). -/
theorem pay4_apply (k : Fin 64) (o : Fin 32) :
    k0_pay4 (F := Ideal) v25 (ix2 k o) = ((sgn (w2r o k) : ℝ) : EReal) := by
  unfold k0_pay4
  exact (LibPlainDot.transpose2_apply _ _ k o).trans (sign_apply v25 w2r h2 o k)

include h0 h1 h2 h3 in
/-- The stored value at (b, o): the network of row b at output o. -/
theorem pay1_apply (b : Fin 2048) (o : Fin 4) :
    k0_pay1 (F := Ideal) (k0_pay2 v0 v1) (k0_pay3 v0 v1) (k0_pay4 v25) (constant S2048x32 .f32 0x00000000#32) v49 (ix2 b o)
      = ((net (xr b) w1r w2r w3r o : ℝ) : EReal) := by
  unfold k0_pay1
  have hlayer2 : ∀ (b : Fin 2048) (k : Fin 32), _ = ((layerRow 64 4096 (layerRow 768 589824 (xr b) w1r) w2r k : ℝ) : EReal) := fun b k =>
    (tail_apply (R := 2048) (L := 64) (O := 32) 0x42800000#32 0x45800000#32 64 4096 Consts.ofBits_64 Consts.ofBits_4096 (by norm_num)
      (k0_pay2 (F := Ideal) v0 v1) (k0_pay3 (F := Ideal) v0 v1) (k0_pay4 (F := Ideal) v25)
      (fun b j => 2 * layerRow 768 589824 (xr b) w1r j - 1) (fun o j => sgn (w2r o j))
      (pay2_apply v0 v1 xr w1r h0 h1) (pay3_apply v0 v1 xr w1r h0 h1) (pay4_apply v25 w2r h2)
      reduces_S2048x64_S2048 (.inl rfl) rfl shapeCasts_S2048_S2048x1 broadcasts_S2048x1_S2048x32 b k).trans rfl
  refine (tail_apply (R := 2048) (L := 32) (O := 4) 0x42000000#32 0x44800000#32 32 1024 Consts.ofBits_32 Consts.ofBits_1024 (by norm_num)
    _ _ _ (fun b j => 2 * layerRow 64 4096 (layerRow 768 589824 (xr b) w1r) w2r j - 1) (fun o j => sgn (w3r o j)) ?he ?heb ?hwT _ _ _ _ _ b o).trans ?_
  case he => exact fun b j => e_apply _ (fun b j => layerRow 64 4096 (layerRow 768 589824 (xr b) w1r) w2r j) hlayer2 b j
  case heb => exact fun b j => e_apply _ (fun b j => layerRow 64 4096 (layerRow 768 589824 (xr b) w1r) w2r j) hlayer2 b j
  case hwT => exact fun j o => (LibPlainDot.transpose2_apply _ _ j o).trans (sign_apply v49 w3r h3 o j)
  rfl

end Cert.KernelPay

end
-- ==== Proof.Out.lean ====
/-
  The result array as one function of the four argument arrays.

  Entry (r, o) of the result is the network applied to row r of the input at output o, the arrays' entries read as
  real numbers (which they are under the precondition; an entry that is not is read as its real part, and nothing is
  claimed of it).
-/
import Idealize.ShloMosaic.Lib.ValueIdx
import proofs.«118821_j20512763805724_1_alg».proof.Proof.Spec

noncomputable section

namespace Cert.Out

open Idealize.ShloMosaic Idealize.ShloMosaic.ValueIdx Cert.Spec

/-- The network's value at row r and output o, from the arrays' entries. -/
def outFn (x0 : (⟨2, ![65536, 768]⟩ : Shape).Idx → EReal) (x1 : (⟨2, ![64, 768]⟩ : Shape).Idx → EReal)
    (x2 : (⟨2, ![32, 64]⟩ : Shape).Idx → EReal) (x3 : (⟨2, ![4, 32]⟩ : Shape).Idx → EReal) (r : Fin 65536) (o : Fin 4) : ℝ :=
  net (fun k => (x0 (ix2 r k)).toReal) (fun o k => (x1 (ix2 o k)).toReal) (fun o k => (x2 (ix2 o k)).toReal)
    (fun o k => (x3 (ix2 o k)).toReal) o

/-- The result array. -/
def outArr (x0 : (⟨2, ![65536, 768]⟩ : Shape).Idx → EReal) (x1 : (⟨2, ![64, 768]⟩ : Shape).Idx → EReal)
    (x2 : (⟨2, ![32, 64]⟩ : Shape).Idx → EReal) (x3 : (⟨2, ![4, 32]⟩ : Shape).Idx → EReal) : (⟨2, ![65536, 4]⟩ : Shape).Idx → EReal :=
  fun i => ((outFn x0 x1 x2 x3 ⟨(i 0).val, (i 0).isLt⟩ ⟨(i 1).val, (i 1).isLt⟩ : ℝ) : EReal)

/-- At an index given by its coordinates. -/
theorem outArr_ix2 (x0 : (⟨2, ![65536, 768]⟩ : Shape).Idx → EReal) (x1 : (⟨2, ![64, 768]⟩ : Shape).Idx → EReal)
    (x2 : (⟨2, ![32, 64]⟩ : Shape).Idx → EReal) (x3 : (⟨2, ![4, 32]⟩ : Shape).Idx → EReal) (r : Fin 65536) (o : Fin 4) :
    outArr x0 x1 x2 x3 (ix2 r o) = ((outFn x0 x1 x2 x3 r o : ℝ) : EReal) := rfl

end Cert.Out

end
-- ==== Proof.KernelValue.lean ====
/-
  From the blocks to the array: after the kernel's run the result array is the network of the argument arrays.

  The grid has 32 points; point t stages rows 2048·t … 2048·t + 2047 of the input (all 768 columns), the three weight
  matrices whole, and writes back rows 2048·t … 2048·t + 2047 of the result (all 4 columns). What point t writes back
  is the body's stored value of its blocks; entry (b, o) of that is the network of row b of the block, which is row
  2048·t + b of the input — so point t writes block t of the one function `outArr`. The 32 blocks tile the result
  (row r lies in block r / 2048), so the array ends holding `outArr`.
-/
import proofs.«118821_j20512763805724_1_alg».proof.Proof.Gen.KernelIdeal.Value
import proofs.«118821_j20512763805724_1_alg».proof.Proof.KernelPay
import proofs.«118821_j20512763805724_1_alg».proof.Proof.Out

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 points: the input's and the result's row block is the point, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := Nat.lt_of_lt_of_eq t.isLt (show cfg0.N = 32 from N_0)

/-- Entry (b, k) of the input's block at point t is entry (2048·t + b, k) of the input. -/
theorem emb0 (t : Fin cfg0.N) (b : Fin 2048) (k : Fin 768) (h : 2048 * t.val + b.val < 65536) :
    ((cfg0.win 0).blk t).view.emb (ix2 b k) = ix2 (⟨2048 * t.val + b.val, h⟩ : Fin 65536) k := by
  obtain ⟨e0, e1, -⟩ := idx_facts t
  funext a; apply Fin.ext
  match a with
  | ⟨0, _⟩ => show win0_0.index t (0 : Fin 2) * 2048 + 1 * b.val = 2048 * t.val + b.val; rw [e0]; omega
  | ⟨1, _⟩ => show win0_0.index t (1 : Fin 2) * 768 + 1 * k.val = k.val; rw [e1]; omega

/-- The weight matrices are staged whole. -/
theorem emb1 (t : Fin cfg0.N) (o : Fin 64) (k : Fin 768) : ((cfg0.win 1).blk t).view.emb (ix2 o k) = ix2 o k := by
  obtain ⟨-, -, e2, e3, -⟩ := idx_facts t
  funext a; apply Fin.ext
  match a with
  | ⟨0, _⟩ => show win0_1.index t (0 : Fin 2) * 64 + 1 * o.val = o.val; rw [e2]; omega
  | ⟨1, _⟩ => show win0_1.index t (1 : Fin 2) * 768 + 1 * k.val = k.val; rw [e3]; omega

theorem emb2 (t : Fin cfg0.N) (o : Fin 32) (k : Fin 64) : ((cfg0.win 2).blk t).view.emb (ix2 o k) = ix2 o k := by
  obtain ⟨-, -, -, -, e4, e5, -⟩ := idx_facts t
  funext a; apply Fin.ext
  match a with
  | ⟨0, _⟩ => show win0_2.index t (0 : Fin 2) * 32 + 1 * o.val = o.val; rw [e4]; omega
  | ⟨1, _⟩ => show win0_2.index t (1 : Fin 2) * 64 + 1 * k.val = k.val; rw [e5]; omega

theorem emb3 (t : Fin cfg0.N) (o : Fin 4) (k : Fin 32) : ((cfg0.win 3).blk t).view.emb (ix2 o k) = ix2 o k := by
  obtain ⟨-, -, -, -, -, -, e6, e7, -⟩ := idx_facts t
  funext a; apply Fin.ext
  match a with
  | ⟨0, _⟩ => show win0_3.index t (0 : Fin 2) * 4 + 1 * o.val = o.val; rw [e6]; omega
  | ⟨1, _⟩ => show win0_3.index t (1 : Fin 2) * 32 + 1 * k.val = k.val; rw [e7]; omega

/-- Entry (b, o) of the result's block at point t is entry (2048·t + b, o) of the result. -/
theorem emb4 (t : Fin cfg0.N) (b : Fin 2048) (o : Fin 4) (h : 2048 * t.val + b.val < 65536) :
    ((cfg0.win 4).blk t).view.emb (ix2 b o) = ix2 (⟨2048 * t.val + b.val, h⟩ : Fin 65536) o := by
  obtain ⟨-, -, -, -, -, -, -, -, e8, e9⟩ := idx_facts t
  funext a; apply Fin.ext
  match a with
  | ⟨0, _⟩ => show win0_4.index t (0 : Fin 2) * 2048 + 1 * b.val = 2048 * t.val + b.val; rw [e8]; omega
  | ⟨1, _⟩ => show win0_4.index t (1 : Fin 2) * 4 + 1 * o.val = o.val; rw [e9]; omega

/-- The four argument arrays hold real numbers on core c. -/
def Reals (c : Dev nD) : Prop :=
  (∀ i, V m c main_arg0 i = (((V m c main_arg0 i).toReal : ℝ) : EReal)) ∧ (∀ i, V m c main_arg1 i = (((V m c main_arg1 i).toReal : ℝ) : EReal))
    ∧ (∀ i, V m c main_arg2 i = (((V m c main_arg2 i).toReal : ℝ) : EReal)) ∧ (∀ i, V m c main_arg3 i = (((V m c main_arg3 i).toReal : ℝ) : EReal))

/-- WHAT POINT t WRITES BACK is block t of `outArr` of the argument arrays. -/
theorem flushed_eq (c : Dev nD) (hr : Reals m c) (t : Fin cfg0.N) :
    (dats m 0 c).flushed 4 t = ((cfg0.win 4).blk t).view.read (Elt Ideal)
      (Out.outArr (V m c main_arg0) (V m c main_arg1) (V m c main_arg2) (V m c main_arg3)) := by
  obtain ⟨hr0, hr1, hr2, hr3⟩ := hr
  rw [flushed4]
  unfold out0_4
  rw [View.canon_unit_zero hz]
  simp only [View.ld_unit_zero (S := S2048x768) hz, View.ld_unit_zero (S := S64x768) hz, View.ld_unit_zero (S := S32x64) hz,
    View.ld_unit_zero (S := S4x32) hz]
  funext j
  obtain ⟨b, o, rfl⟩ : ∃ (b : Fin 2048) (o : Fin 4), j = ix2 b o := ⟨j 0, j 1, eq_ix2 j⟩
  have ht : t.val < 32 := t_lt t
  have hb : 2048 * t.val + b.val < 65536 := by have := b.isLt; omega
  show k0_pay1 (F := Ideal) (k0_pay2 (iblk m c 0 t) (iblk m c 1 t)) (k0_pay3 (iblk m c 0 t) (iblk m c 1 t)) (k0_pay4 (iblk m c 2 t))
      (constant S2048x32 .f32 0x00000000#32) (iblk m c 3 t) (ix2 b o)
    = Out.outArr (V m c main_arg0) (V m c main_arg1) (V m c main_arg2) (V m c main_arg3) (((cfg0.win 4).blk t).view.emb (ix2 b o))
  rw [emb4 t b o hb]
  refine (KernelPay.pay1_apply (iblk m c 0 t) (iblk m c 1 t) (iblk m c 2 t) (iblk m c 3 t)
    (fun b' k => (V m c main_arg0 (ix2 (⟨2048 * t.val + b'.val, by have := b'.isLt; omega⟩ : Fin 65536) k)).toReal)
    (fun o k => (V m c main_arg1 (ix2 o k)).toReal) (fun o k => (V m c main_arg2 (ix2 o k)).toReal) (fun o k => (V m c main_arg3 (ix2 o k)).toReal)
    ?h0 ?h1 ?h2 ?h3 b o).trans ?_
  case h0 =>
    intro b' k
    show V m c main_arg0 (((cfg0.win 0).blk t).view.emb (ix2 b' k)) = _
    rw [emb0 t b' k (by have := b'.isLt; omega)]
    exact hr0 _
  case h1 =>
    intro o' k
    show V m c main_arg1 (((cfg0.win 1).blk t).view.emb (ix2 o' k)) = _
    rw [emb1 t o' k]
    exact hr1 _
  case h2 =>
    intro o' k
    show V m c main_arg2 (((cfg0.win 2).blk t).view.emb (ix2 o' k)) = _
    rw [emb2 t o' k]
    exact hr2 _
  case h3 =>
    intro o' k
    show V m c main_arg3 (((cfg0.win 3).blk t).view.emb (ix2 o' k)) = _
    rw [emb3 t o' k]
    exact hr3 _
  rfl

/-- An index of the result is in point t's block iff each coordinate is in the block's range on its axis. -/
theorem mem_blk (t : Fin cfg0.N) (i : S65536x4.Idx) :
    i ∈ ((cfg0.win 4).blk t).view.set ↔ ∀ a : Fin 2, win0_4.index t a * S2048x4.size a ≤ (i a).val ∧ (i a).val < win0_4.index t a * S2048x4.size a + S2048x4.size a := by
  show i ∈ ((View.whole main_v0).slice (win0_4.rect t)).set ↔ _
  rw [View.set_slice_whole, Rect.mem_set_unit]
  exact Iff.rfl

/-- Every index of the result is in some point's block: row r in block r / 2048. -/
theorem cover (i : S65536x4.Idx) : ∃ t : Fin cfg0.N, (cfg0.win 4).flush t = true ∧ i ∈ ((cfg0.win 4).blk t).view.set := by
  have hi0 : (i 0).val < 65536 := (i 0).isLt
  have hi1 : (i 1).val < 4 := (i 1).isLt
  have hN : (i 0).val / 2048 < cfg0.N := by rw [show cfg0.N = 32 from N_0]; omega
  obtain ⟨-, -, -, -, -, -, -, -, e8, e9⟩ := idx_facts ⟨(i 0).val / 2048, hN⟩
  refine ⟨⟨(i 0).val / 2048, hN⟩, flush0_4 _, ?_⟩
  rw [mem_blk]
  intro a
  match a with
  | ⟨0, _⟩ =>
    show win0_4.index ⟨(i 0).val / 2048, hN⟩ (0 : Fin 2) * 2048 ≤ (i 0).val ∧ (i 0).val < win0_4.index ⟨(i 0).val / 2048, hN⟩ (0 : Fin 2) * 2048 + 2048
    rw [e8]
    show (i 0).val / 2048 * 2048 ≤ (i 0).val ∧ (i 0).val < (i 0).val / 2048 * 2048 + 2048
    omega
  | ⟨1, _⟩ =>
    show win0_4.index ⟨(i 0).val / 2048, hN⟩ (1 : Fin 2) * 4 ≤ (i 1).val ∧ (i 1).val < win0_4.index ⟨(i 0).val / 2048, hN⟩ (1 : Fin 2) * 4 + 4
    rw [e9]
    omega

/-- THE ARRAY after the run is `outArr` of the argument arrays. -/
theorem final (c : Dev nD) (hr : Reals m c) :
    (dats m 0 c).arrAt 4 cfg0.N = Out.outArr (V m c main_arg0) (V m c main_arg1) (V m c main_arg2) (V m c main_arg3) :=
  (dats m 0 c).arrAt_eq_of_cover 4 (Out.outArr (V m c main_arg0) (V m c main_arg1) (V m c main_arg2) (V m c main_arg3))
    (fun t _ => flushed_eq m c hr t) (fun i => cover i)

/-- The kernel's run with its result named: every weakly fair execution ends with the result array at `outArr` of the
    argument arrays and the arguments unchanged. -/
theorem run (hr : ∀ c : Dev nD, Reals m c) :
    θ_run defs (onTc (τ := τ) (main (F := Ideal))) ⟨m, fun _ => 0, ρ⟩ fun r => ∀ c : Dev nD,
      r.2.mem ((c : Thread nD τ).loc main_v0) = Out.outArr (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (run_blocks m ρ)

end Cert.KernelValue

end
-- ==== Proof.RefLayer.lean ====
/-
  One layer of the reference read at an index, for any sizes: R rows, L inputs, O outputs.

  The reference forms e = 2·p − 1 and d = 4·p·(1 − p), sums d + e·e along each row, takes the weight as
  w + (s(w) − w) with s the choice of ±1 by the comparison w ≥ 0, contracts e with the weight and e·e with the
  weight's square along the shared axis, and closes with (sum + s1·s1 − s2) / c'. Read at the entry (r, o), with p and w
  holding real numbers: each summand d + e·e is one, so the first sum is the width; the weight is s(w), whose square is
  one, so the second contraction is the row's sum of squares; and the entry is the layer function of row r.
-/
import Idealize.ShloMosaic.PureOps.Ideal.Laws
import Idealize.ShloMosaic.Lib.ValueIdx
import Idealize.ShloMosaic.Lib.Pipeline.Value
import proofs.«118821_j20512763805724_1_alg».proof.Proof.Consts
import proofs.«118821_j20512763805724_1_alg».proof.Proof.Spec
import proofs.«118821_j20512763805724_1_alg».proof.Proof.KLayer

noncomputable section

namespace Cert.RefLayer

open Idealize.ShloMosaic Idealize.ShloMosaic.ValueIdx Cert.Spec

/-- The shape of a scalar. -/
abbrev S0 : Shape := ⟨0, ![]⟩

variable {R L O : Nat}

/-- A scalar constant broadcast to any shape reads, everywhere, the value of its pattern. -/
theorem bc_apply {S : Shape} (hb : S0.BroadcastsInDim S (![] : Fin 0 → Fin S.rank)) (c : BitVec 32) (i : S.Idx) :
    broadcastInDim S ![] hb (constant (F := Ideal) S0 .f32 c) i = Ideal.ofBits .f32 c :=
  broadcastInDim_apply _ hb (constant (F := Ideal) S0 .f32 c) i ix0 (fun a => a.elim0)

/-! ## The contraction of two matrices along their second axes -/

theorem tr_contr_rank : (DotDims.transposedRhs R L O).contr.rank = 1 := rfl
theorem tr_contr_size : (DotDims.transposedRhs R L O).contr.size ⟨0, by rw [tr_contr_rank]; exact Nat.one_pos⟩ = L := rfl

/-- The left operand's index at output (r, o) and contraction coordinate k is (r, k). -/
theorem tr_lhsIdx (j : (⟨2, ![R, O]⟩ : Shape).Idx) (k : Fin L) :
    (DotDims.transposedRhs R L O).lhsIdx j ((contrEquiv1 (DotDims.transposedRhs R L O) L tr_contr_rank tr_contr_size).symm k) = ix2 (j 0) k := by
  funext a
  refine Fin.ext ?_
  match a with
  | ⟨0, _⟩ => rfl
  | ⟨1, _⟩ =>
    exact ((DotDims.transposedRhs R L O).lhsIdx_val_of_single (cl := 1) rfl j _).trans
      (contrEquiv1_symm_val (DotDims.transposedRhs R L O) L tr_contr_rank tr_contr_size k)

/-- The right operand's index is (o, k). -/
theorem tr_rhsIdx (j : (⟨2, ![R, O]⟩ : Shape).Idx) (k : Fin L) :
    (DotDims.transposedRhs R L O).rhsIdx j ((contrEquiv1 (DotDims.transposedRhs R L O) L tr_contr_rank tr_contr_size).symm k) = ix2 (j 1) k := by
  funext a
  refine Fin.ext ?_
  match a with
  | ⟨0, _⟩ => rfl
  | ⟨1, _⟩ =>
    exact ((DotDims.transposedRhs R L O).rhsIdx_val_of_single (cr := 1) rfl j _).trans
      (contrEquiv1_symm_val (DotDims.transposedRhs R L O) L tr_contr_rank tr_contr_size k)

/-- The host's contraction along both second axes, at an index: Σ_k l(r, k) · w(o, k). -/
theorem dotGeneral_tr (l : FVec Ideal ⟨2, ![R, L]⟩ .f32) (w : FVec Ideal ⟨2, ![O, L]⟩ .f32) (r : Fin R) (o : Fin O) :
    Host.dotGeneral (DotDims.transposedRhs R L O) none l w (ix2 r o) = ∑ k : Fin L, l (ix2 r k) * w (ix2 o k) := by
  simp only [Host.dotGeneral]
  rw [Ideal.dotGeneral_apply, ← Equiv.sum_comp (contrEquiv1 (DotDims.transposedRhs R L O) L tr_contr_rank tr_contr_size).symm]
  exact Finset.sum_congr rfl fun k _ =>
    congrArg₂ (· * ·) (congrArg l (tr_lhsIdx (ix2 r o) k)) (congrArg w (tr_rhsIdx (ix2 r o) k))

/-! ## Layout -/

/-- A vector of row values laid down a column and then along the rows reads, at (p, q), the vector at p. -/
theorem colBroadcastInDim_apply {α : Type} {C : Nat} (v : (⟨1, ![R]⟩ : Shape).Idx → α)
    (h1 : (⟨1, ![R]⟩ : Shape).BroadcastsInDim ⟨2, ![R, 1]⟩ ![0]) (h2 : (⟨2, ![R, 1]⟩ : Shape).BroadcastsInDim ⟨2, ![R, C]⟩ ![0, 1])
    (p : Fin R) (q : Fin C) :
    broadcastInDim ⟨2, ![R, C]⟩ ![0, 1] h2 (broadcastInDim ⟨2, ![R, 1]⟩ ![0] h1 v) (ix2 p q) = v (ix1 p) := by
  rw [broadcastInDim_apply ![0, 1] h2 _ (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])]
  exact broadcastInDim_apply ![0] h1 v (ix2 p (0 : Fin 1)) (ix1 p) (fun a => by
    match a with
    | ⟨0, _⟩ =>
      show p.val = if R = 1 then 0 else p.val
      split
      · have := p.isLt; omega
      · rfl)

/-- The host's sum along the second axis, at row r: the initial value plus the sum of the row. -/
theorem hostRowSum_apply (x : FVec Ideal ⟨2, ![R, L]⟩ .f32) (init : FVec Ideal S0 .f32)
    (h' : (⟨2, ![R, L]⟩ : Shape).ReducesTo [1] (⟨1, ![R]⟩ : Shape)) (h : (⟨2, ![R, L]⟩ : Shape).Reduces [1] (⟨1, ![R]⟩ : Shape))
    (hu : 0 < S0.numel) (r : Fin R) :
    Host.reduceAdd x init h' hu (ix1 r) = init (Shape.Idx.first hu) + ∑ k : Fin L, x (ix2 r k) := by
  simp only [Host.reduceAdd, Ideal.hostReduceAdd_def]
  rw [Ideal.hostReduceAdd_single h' h]
  exact congrArg (_ + ·) (Finset.sum_congr rfl fun k _ => congrArg x (KLayer.lift_row h r k))

/-! ## The layer -/

section layer

variable (hbRL : S0.BroadcastsInDim (⟨2, ![R, L]⟩ : Shape) (![] : Fin 0 → Fin 2))
variable (hbOL : S0.BroadcastsInDim (⟨2, ![O, L]⟩ : Shape) (![] : Fin 0 → Fin 2))
variable (hbRO : S0.BroadcastsInDim (⟨2, ![R, O]⟩ : Shape) (![] : Fin 0 → Fin 2))
variable (hb2 : (⟨1, ![R]⟩ : Shape).BroadcastsInDim ⟨2, ![R, 1]⟩ ![0]) (hb3 : (⟨2, ![R, 1]⟩ : Shape).BroadcastsInDim ⟨2, ![R, O]⟩ ![0, 1])
variable (hred : (⟨2, ![R, L]⟩ : Shape).ReducesTo [1] (⟨1, ![R]⟩ : Shape)) (hu : 0 < S0.numel)
variable (d : DotDims ⟨2, ![R, L]⟩ ⟨2, ![O, L]⟩ ⟨2, ![R, O]⟩)

/-- e = 2·p − 1, as the reference spells it. -/
def refE (p : FVec Ideal ⟨2, ![R, L]⟩ .f32) : FVec Ideal ⟨2, ![R, L]⟩ .f32 :=
  subf (mulf (broadcastInDim ⟨2, ![R, L]⟩ ![] hbRL (constant (F := Ideal) S0 .f32 0x40000000#32)) p)
    (broadcastInDim ⟨2, ![R, L]⟩ ![] hbRL (constant (F := Ideal) S0 .f32 0x3F800000#32))

/-- The weight w + (s(w) − w), as the reference spells it. -/
def refWB (w : FVec Ideal ⟨2, ![O, L]⟩ .f32) : FVec Ideal ⟨2, ![O, L]⟩ .f32 :=
  addf w (subf (id (select (cmpf .oge w (broadcastInDim ⟨2, ![O, L]⟩ ![] hbOL (constant (F := Ideal) S0 .f32 0x00000000#32)))
    (broadcastInDim ⟨2, ![O, L]⟩ ![] hbOL (constant (F := Ideal) S0 .f32 0x3F800000#32))
    (broadcastInDim ⟨2, ![O, L]⟩ ![] hbOL (constant (F := Ideal) S0 .f32 0xBF800000#32)))) w)

/-- One layer, as the reference spells it, with the closing constant's pattern `wLL`. -/
def refLayer (wLL : BitVec 32) (p : FVec Ideal ⟨2, ![R, L]⟩ .f32) (w : FVec Ideal ⟨2, ![O, L]⟩ .f32) : FVec Ideal ⟨2, ![R, O]⟩ .f32 :=
  Host.divf
    (subf
      (addf
        (broadcastInDim ⟨2, ![R, O]⟩ ![0, 1] hb3 (broadcastInDim ⟨2, ![R, 1]⟩ ![0] hb2
          (Host.reduceAdd
            (addf (mulf (mulf (broadcastInDim ⟨2, ![R, L]⟩ ![] hbRL (constant (F := Ideal) S0 .f32 0x40800000#32)) p)
                        (subf (broadcastInDim ⟨2, ![R, L]⟩ ![] hbRL (constant (F := Ideal) S0 .f32 0x3F800000#32)) p))
                  (mulf (refE hbRL p) (refE hbRL p)))
            (constant (F := Ideal) S0 .f32 0x00000000#32) hred hu)))
        (mulf (Host.dotGeneral d none (refE hbRL p) (refWB hbOL w)) (Host.dotGeneral d none (refE hbRL p) (refWB hbOL w))))
      (Host.dotGeneral d none (mulf (refE hbRL p) (refE hbRL p)) (mulf (refWB hbOL w) (refWB hbOL w))))
    (broadcastInDim ⟨2, ![R, O]⟩ ![] hbRO (constant (F := Ideal) S0 .f32 wLL))

variable (p : FVec Ideal ⟨2, ![R, L]⟩ .f32) (w : FVec Ideal ⟨2, ![O, L]⟩ .f32)
variable (pr : Fin R → Fin L → ℝ) (wr : Fin O → Fin L → ℝ)
variable (hp : ∀ r k, p (ix2 r k) = ((pr r k : ℝ) : EReal)) (hw : ∀ o k, w (ix2 o k) = ((wr o k : ℝ) : EReal))

include hp in
theorem refE_apply (r : Fin R) (k : Fin L) : refE hbRL p (ix2 r k) = ((2 * pr r k - 1 : ℝ) : EReal) := by
  show broadcastInDim ⟨2, ![R, L]⟩ ![] hbRL (constant (F := Ideal) S0 .f32 0x40000000#32) (ix2 r k) * p (ix2 r k)
    - broadcastInDim ⟨2, ![R, L]⟩ ![] hbRL (constant (F := Ideal) S0 .f32 0x3F800000#32) (ix2 r k) = _
  rw [bc_apply, bc_apply, Consts.ofBits_two, Consts.ofBits_one, hp]
  exact e_coe _

include hw in
theorem refWB_apply (o : Fin O) (k : Fin L) : refWB hbOL w (ix2 o k) = ((sgn (wr o k) : ℝ) : EReal) := by
  show w (ix2 o k) + (Scalar.select (Ideal.cmp .oge (w (ix2 o k)) (broadcastInDim ⟨2, ![O, L]⟩ ![] hbOL (constant (F := Ideal) S0 .f32 0x00000000#32) (ix2 o k)))
      (broadcastInDim ⟨2, ![O, L]⟩ ![] hbOL (constant (F := Ideal) S0 .f32 0x3F800000#32) (ix2 o k))
      (broadcastInDim ⟨2, ![O, L]⟩ ![] hbOL (constant (F := Ideal) S0 .f32 0xBF800000#32) (ix2 o k)) - w (ix2 o k)) = _
  rw [bc_apply, bc_apply, bc_apply, Consts.ofBits_zero, Consts.ofBits_one, Consts.ofBits_neg_one, hw, select_sign]
  exact ste_coe _

include hp hw in
/-- The reference's layer at the entry (r, o) is the layer function of row r: for the closing constant `cLL ≠ 0`,
    the first constant `cL` the width, and the dimension numbers those of a contraction along both second axes. -/
theorem refLayer_apply (wLL : BitVec 32) (cL cLL : ℝ) (hwLL : Ideal.ofBits .f32 wLL = ((cLL : ℝ) : EReal)) (hcLL : cLL ≠ 0)
    (hcL : ((L : ℕ) : ℝ) = cL) (hd : d = DotDims.transposedRhs R L O)
    (hred' : (⟨2, ![R, L]⟩ : Shape).Reduces [1] (⟨1, ![R]⟩ : Shape)) (r : Fin R) (o : Fin O) :
    refLayer hbRL hbOL hbRO hb2 hb3 hred hu d wLL p w (ix2 r o) = ((layerRow cL cLL (pr r) wr o : ℝ) : EReal) := by
  subst hd
  have hS : broadcastInDim ⟨2, ![R, O]⟩ ![0, 1] hb3 (broadcastInDim ⟨2, ![R, 1]⟩ ![0] hb2
          (Host.reduceAdd
            (addf (mulf (mulf (broadcastInDim ⟨2, ![R, L]⟩ ![] hbRL (constant (F := Ideal) S0 .f32 0x40800000#32)) p)
                        (subf (broadcastInDim ⟨2, ![R, L]⟩ ![] hbRL (constant (F := Ideal) S0 .f32 0x3F800000#32)) p))
                  (mulf (refE hbRL p) (refE hbRL p)))
            (constant (F := Ideal) S0 .f32 0x00000000#32) hred hu)) (ix2 r o) = ((cL : ℝ) : EReal) := by
    refine (colBroadcastInDim_apply _ hb2 hb3 r o).trans ?_
    refine (hostRowSum_apply _ _ hred hred' hu r).trans ?_
    have hterm : ∀ k : Fin L,
        addf (mulf (mulf (broadcastInDim ⟨2, ![R, L]⟩ ![] hbRL (constant (F := Ideal) S0 .f32 0x40800000#32)) p)
                        (subf (broadcastInDim ⟨2, ![R, L]⟩ ![] hbRL (constant (F := Ideal) S0 .f32 0x3F800000#32)) p))
                  (mulf (refE hbRL p) (refE hbRL p)) (ix2 r k) = ((1 : ℝ) : EReal) := fun k => by
      show broadcastInDim ⟨2, ![R, L]⟩ ![] hbRL (constant (F := Ideal) S0 .f32 0x40800000#32) (ix2 r k) * p (ix2 r k)
          * (broadcastInDim ⟨2, ![R, L]⟩ ![] hbRL (constant (F := Ideal) S0 .f32 0x3F800000#32) (ix2 r k) - p (ix2 r k))
          + refE hbRL p (ix2 r k) * refE hbRL p (ix2 r k) = _
      rw [bc_apply, bc_apply, Consts.ofBits_four, Consts.ofBits_one, refE_apply hbRL p pr hp, hp]
      exact one_coe _
    rw [Finset.sum_congr rfl fun k _ => hterm k]
    show Ideal.ofBits .f32 0x00000000#32 + _ = _
    rw [Consts.ofBits_zero, sum_ones, hcL]
  have hD : Host.dotGeneral (DotDims.transposedRhs R L O) none (refE hbRL p) (refWB hbOL w) (ix2 r o)
      = ((∑ k, (2 * pr r k - 1) * sgn (wr o k) : ℝ) : EReal) := by
    rw [dotGeneral_tr, ← sum_coe_mul]
    exact Finset.sum_congr rfl fun k _ => congrArg₂ (· * ·) (refE_apply hbRL p pr hp r k) (refWB_apply hbOL w wr hw o k)
  have hD2 : Host.dotGeneral (DotDims.transposedRhs R L O) none (mulf (refE hbRL p) (refE hbRL p)) (mulf (refWB hbOL w) (refWB hbOL w)) (ix2 r o)
      = ((∑ k, (2 * pr r k - 1) * (2 * pr r k - 1) : ℝ) : EReal) := by
    rw [dotGeneral_tr, coe_sum]
    refine Finset.sum_congr rfl fun k _ => ?_
    show refE hbRL p (ix2 r k) * refE hbRL p (ix2 r k) * (refWB hbOL w (ix2 o k) * refWB hbOL w (ix2 o k)) = _
    rw [refE_apply hbRL p pr hp, refWB_apply hbOL w wr hw, ← EReal.coe_mul, ← EReal.coe_mul, ← EReal.coe_mul, sgn_mul_self, mul_one]
  show Ideal.div (_ + Host.dotGeneral (DotDims.transposedRhs R L O) none (refE hbRL p) (refWB hbOL w) (ix2 r o)
        * Host.dotGeneral (DotDims.transposedRhs R L O) none (refE hbRL p) (refWB hbOL w) (ix2 r o)
      - Host.dotGeneral (DotDims.transposedRhs R L O) none (mulf (refE hbRL p) (refE hbRL p)) (mulf (refWB hbOL w) (refWB hbOL w)) (ix2 r o))
      (broadcastInDim ⟨2, ![R, O]⟩ ![] hbRO (constant (F := Ideal) S0 .f32 wLL) (ix2 r o)) = _
  rw [hS, hD, hD2, bc_apply, hwLL]
  exact close_coe cL cLL _ _ hcLL

end layer

end Cert.RefLayer

end
-- ==== Proof.RefValue.lean ====
/-
  The reference's result is the network of the argument arrays.

  The reference's run ends with its result at the composed term of its 120 host operations. That term is three layers
  in the reference's spelling, one inside the other (sizes 768 → 64, 64 → 32, 32 → 4 over 65536 rows); read at (r, o)
  with real arguments, the first is the layer function of row r of the input, the second the layer function of that
  row of 64 values, the third of that row of 32: the network of row r at output o.
-/
import proofs.«118821_j20512763805724_1_alg».proof.Proof.RunP
import proofs.«118821_j20512763805724_1_alg».proof.Proof.RefLayer
import proofs.«118821_j20512763805724_1_alg».proof.Proof.Out

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Spec Cert.RefLayer

/-- The first layer as the reference spells it: 65536 rows, 768 → 64. -/
def layer1 (x0 : FVec Ideal S65536x768 .f32) (x1 : FVec Ideal S64x768 .f32) : FVec Ideal S65536x64 .f32 :=
  refLayer bcast_S_S65536x768 bcast_S_S64x768 bcast_S_S65536x64 bcast_S65536_S65536x1_0 bcast_S65536x1_S65536x64_0_1
    reducesTo_S65536x768_S65536_d1 h_S_ dot_S65536x768_S64x768_S65536x64_1_1_0_0_n_n 0x49100000#32 x0 x1

/-- The second: 64 → 32. -/
def layer2 (h1 : FVec Ideal S65536x64 .f32) (x2 : FVec Ideal S32x64 .f32) : FVec Ideal S65536x32 .f32 :=
  refLayer bcast_S_S65536x64 bcast_S_S32x64 bcast_S_S65536x32 bcast_S65536_S65536x1_0 bcast_S65536x1_S65536x32_0_1
    reducesTo_S65536x64_S65536_d1 h_S_ dot_S65536x64_S32x64_S65536x32_1_1_0_0_n_n 0x45800000#32 h1 x2

/-- The third: 32 → 4. -/
def layer3 (h2 : FVec Ideal S65536x32 .f32) (x3 : FVec Ideal S4x32 .f32) : FVec Ideal S65536x4 .f32 :=
  refLayer bcast_S_S65536x32 bcast_S_S4x32 bcast_S_S65536x4 bcast_S65536_S65536x1_0 bcast_S65536x1_S65536x4_0_1
    reducesTo_S65536x32_S65536_d1 h_S_ dot_S65536x32_S4x32_S65536x4_1_1_0_0_n_n 0x44800000#32 h2 x3

/-- The run's result term is the three layers, one inside the other. -/
theorem res_eq (m : (ℓ : Loc nD τ sig) → Buf (Elt Ideal) ℓ) (c : Dev nD) :
    ValueP.res_main_v86 (F := Ideal) m c
      = layer3 (layer2 (layer1 (m ((c.tc : Thread nD τ).loc main_arg0)) (m ((c.tc : Thread nD τ).loc main_arg1)))
          (m ((c.tc : Thread nD τ).loc main_arg2))) (m ((c.tc : Thread nD τ).loc main_arg3)) := rfl

variable (x0 : FVec Ideal S65536x768 .f32) (x1 : FVec Ideal S64x768 .f32) (x2 : FVec Ideal S32x64 .f32) (x3 : FVec Ideal S4x32 .f32)
variable (hx0 : ∀ i, x0 i = (((x0 i).toReal : ℝ) : EReal)) (hx1 : ∀ i, x1 i = (((x1 i).toReal : ℝ) : EReal))
variable (hx2 : ∀ i, x2 i = (((x2 i).toReal : ℝ) : EReal)) (hx3 : ∀ i, x3 i = (((x3 i).toReal : ℝ) : EReal))

include hx0 hx1 in
theorem layer1_apply (r : Fin 65536) (k : Fin 64) :
    layer1 x0 x1 (ix2 r k)
      = ((layerRow 768 589824 (fun j => (x0 (ix2 r j)).toReal) (fun o j => (x1 (ix2 o j)).toReal) k : ℝ) : EReal) :=
  refLayer_apply (R := 65536) (L := 768) (O := 64) bcast_S_S65536x768 bcast_S_S64x768 bcast_S_S65536x64 bcast_S65536_S65536x1_0
    bcast_S65536x1_S65536x64_0_1 reducesTo_S65536x768_S65536_d1 h_S_ dot_S65536x768_S64x768_S65536x64_1_1_0_0_n_n x0 x1
    (fun r j => (x0 (ix2 r j)).toReal) (fun o j => (x1 (ix2 o j)).toReal) (fun r j => hx0 _) (fun o j => hx1 _)
    0x49100000#32 768 589824 Consts.ofBits_589824 (by norm_num) (by norm_num) rfl (by decide) r k

include hx0 hx1 hx2 in
theorem layer2_apply (r : Fin 65536) (k : Fin 32) :
    layer2 (layer1 x0 x1) x2 (ix2 r k)
      = ((layerRow 64 4096 (layerRow 768 589824 (fun j => (x0 (ix2 r j)).toReal) (fun o j => (x1 (ix2 o j)).toReal))
          (fun o j => (x2 (ix2 o j)).toReal) k : ℝ) : EReal) :=
  refLayer_apply (R := 65536) (L := 64) (O := 32) bcast_S_S65536x64 bcast_S_S32x64 bcast_S_S65536x32 bcast_S65536_S65536x1_0
    bcast_S65536x1_S65536x32_0_1 reducesTo_S65536x64_S65536_d1 h_S_ dot_S65536x64_S32x64_S65536x32_1_1_0_0_n_n (layer1 x0 x1) x2
    (fun r j => layerRow 768 589824 (fun j => (x0 (ix2 r j)).toReal) (fun o j => (x1 (ix2 o j)).toReal) j) (fun o j => (x2 (ix2 o j)).toReal)
    (layer1_apply x0 x1 hx0 hx1) (fun o j => hx2 _)
    0x45800000#32 64 4096 Consts.ofBits_4096 (by norm_num) (by norm_num) rfl (by decide) r k

include hx0 hx1 hx2 hx3 in
/-- The three layers at (r, o): the network of row r at output o. -/
theorem layer3_apply (r : Fin 65536) (o : Fin 4) :
    layer3 (layer2 (layer1 x0 x1) x2) x3 (ix2 r o) = ((Out.outFn x0 x1 x2 x3 r o : ℝ) : EReal) :=
  refLayer_apply (R := 65536) (L := 32) (O := 4) bcast_S_S65536x32 bcast_S_S4x32 bcast_S_S65536x4 bcast_S65536_S65536x1_0
    bcast_S65536x1_S65536x4_0_1 reducesTo_S65536x32_S65536_d1 h_S_ dot_S65536x32_S4x32_S65536x4_1_1_0_0_n_n (layer2 (layer1 x0 x1) x2) x3
    (fun r j => layerRow 64 4096 (layerRow 768 589824 (fun j => (x0 (ix2 r j)).toReal) (fun o j => (x1 (ix2 o j)).toReal))
      (fun o j => (x2 (ix2 o j)).toReal) j) (fun o j => (x3 (ix2 o j)).toReal)
    (layer2_apply x0 x1 x2 hx0 hx1 hx2) (fun o j => hx3 _)
    0x44800000#32 32 1024 Consts.ofBits_1024 (by norm_num) (by norm_num) rfl (by decide) r o

include hx0 hx1 hx2 hx3 in
/-- As arrays. -/
theorem layers_eq : layer3 (layer2 (layer1 x0 x1) x2) x3 = Out.outArr x0 x1 x2 x3 := by
  funext i
  obtain ⟨r, o, rfl⟩ : ∃ (r : Fin 65536) (o : Fin 4), i = ix2 r o := ⟨i 0, i 1, eq_ix2 i⟩
  exact layer3_apply x0 x1 x2 x3 hx0 hx1 hx2 hx3 r o

/-- The reference's run with its result named: every weakly fair execution ends with the result array at `outArr` of
    the argument arrays (which hold real numbers) and the arguments unchanged. -/
theorem run (m : (ℓ : Loc nD τ sig) → Buf (Elt Ideal) ℓ) (ρ : Dev nD → PrngReg)
    (hr : ∀ c : Dev nD, (∀ i, m ((c.tc : Thread nD τ).loc main_arg0) i = (((m ((c.tc : Thread nD τ).loc main_arg0) i).toReal : ℝ) : EReal))
      ∧ (∀ i, m ((c.tc : Thread nD τ).loc main_arg1) i = (((m ((c.tc : Thread nD τ).loc main_arg1) i).toReal : ℝ) : EReal))
      ∧ (∀ i, m ((c.tc : Thread nD τ).loc main_arg2) i = (((m ((c.tc : Thread nD τ).loc main_arg2) i).toReal : ℝ) : EReal))
      ∧ (∀ i, m ((c.tc : Thread nD τ).loc main_arg3) i = (((m ((c.tc : Thread nD τ).loc main_arg3) i).toReal : ℝ) : EReal))) :
    θ_run defs (onTc (τ := τ) (main (F := Ideal))) ⟨m, fun _ => 0, ρ⟩ fun r => ∀ c : Dev nD,
      r.2.mem ((c.tc : Thread nD τ).loc main_v86) = Out.outArr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((res_eq m c).trans
      (layers_eq _ _ _ _ (hr c).1 (hr c).2.1 (hr c).2.2.1 (hr c).2.2.2)), (h c).2⟩)
    (ValueP.run (F := Ideal) m ρ)

end Cert.ReferenceIdeal.RefValue

end
-- ==== Proof.lean ====
/-
  A three-layer binarised stochastic network on 65536 rows of 768 inputs: the tiled kernel against the plain reference.

  Each layer maps a row p of L values, with a weight matrix w, to  (L + s1² − Σ e²) / L²  where e = 2·p − 1 and
  s1 = Σ e · s(w),  s the choice of +1 or −1 by w ≥ 0. The kernel computes exactly this on blocks of 2048 rows, the
  product on the matrix unit. The reference computes the first term as Σ (4·p·(1 − p) + e²), the weight as
  w + (s(w) − w), and the last term as the contraction of e² with the weight's square. On real numbers the three
  differences vanish (4p(1 − p) + (2p − 1)² = 1, w + (s − w) = s, s² = 1); on the extended reals they need the
  arguments to be real, which the precondition says of the inputs and each layer then says of its value. So both
  programs end with the result array at one function of the argument arrays, the network of each input row.

  The three frames: the kernel's two are the whole generated frame certificates; the reference's is its run with the
  result dropped. The kernel's idealisation rewrote nothing, so there is nothing to preserve.
-/
import proofs.«118821_j20512763805724_1_alg».proof.Defs
import proofs.«118821_j20512763805724_1_alg».proof.Proof.Gen.Kernel
import proofs.«118821_j20512763805724_1_alg».proof.Proof.Gen.Kernel.Skeleton
import proofs.«118821_j20512763805724_1_alg».proof.Proof.Gen.Kernel.Launch
import proofs.«118821_j20512763805724_1_alg».proof.Proof.Gen.Kernel.Points
import proofs.«118821_j20512763805724_1_alg».proof.Proof.Gen.Kernel.Frame
import proofs.«118821_j20512763805724_1_alg».proof.Proof.Gen.KernelIdeal
import proofs.«118821_j20512763805724_1_alg».proof.Proof.Gen.KernelIdeal.Skeleton
import proofs.«118821_j20512763805724_1_alg».proof.Proof.Gen.KernelIdeal.Launch
import proofs.«118821_j20512763805724_1_alg».proof.Proof.Gen.KernelIdeal.Points
import proofs.«118821_j20512763805724_1_alg».proof.Proof.Gen.KernelIdeal.Frame
import proofs.«118821_j20512763805724_1_alg».proof.Proof.Gen.ReferenceIdeal
import proofs.«118821_j20512763805724_1_alg».proof.Proof.Gen.Pre_finite_inputs
import proofs.«118821_j20512763805724_1_alg».proof.Proof.Gen.KernelIdeal.Value
import proofs.«118821_j20512763805724_1_alg».proof.Proof.RunP
import proofs.«118821_j20512763805724_1_alg».proof.Proof.Finite
import proofs.«118821_j20512763805724_1_alg».proof.Proof.KernelValue
import proofs.«118821_j20512763805724_1_alg».proof.Proof.RefValue
import Idealize.ShloMosaic.Adequacy
import Idealize.ShloMosaic.Init

noncomputable section

namespace Cert.Proof

open Idealize.ShloMosaic Idealize.SL.Sem

/-- The kernel's frame at the word level: the generated certificate. -/
theorem frame_k : Cert.frame_Kernel := fun m ρ _ => Cert.Kernel.Gen.frame m ρ

/-- The kernel's frame at the extended reals: the generated certificate. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs, from memories that agree on the four arguments (real numbers, by the precondition), end with the
    result array at the network of the argument arrays. -/
theorem algebraic : Cert.algebraic_KernelIdeal_ReferenceIdeal := by
  intro m ρ m' ρ' hpre hagree
  have hk : ∀ c : Dev Cert.KernelIdeal.nD, Cert.KernelValue.Reals m c := fun c => Cert.Finite.real_of_pre _ _ _ _ (hpre c)
  refine ⟨fun c => Cert.Out.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelValue.run m ρ hk, ?_⟩
  have hpre' : ∀ c : Dev Cert.ReferenceIdeal.nD,
      Cert.Pre_finite_inputs.fn (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = fun _ => 1#1 := fun c => by
    rw [(hagree c).1, (hagree c).2.1, (hagree c).2.2.1, (hagree c).2.2.2]
    exact hpre c
  refine (θ_run Cert.ReferenceIdeal.defs _ _).mono (fun _ h c => ⟨(h c).1.trans ?_, (h c).2⟩)
    (Cert.ReferenceIdeal.RefValue.run m' ρ' (fun c => Cert.Finite.real_of_pre _ _ _ _ (hpre' c)))
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
